-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x1024 .f32) (main_arg13 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x1024 .f32) (main_arg1 : FVec F S8192x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 33
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x1024.size a ≤ S8192x1024.size a
  hwx0_14 : ∀ i : grid0.Coords, EltTy.bits .f32 = 32 ∨ (Rect.block (s := S8192x1024) S256x1024.size (cc0_transform_14 i) (hinb0_14 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v18) S256x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S1024x3072 : Shape := ⟨2, ![1024, 3072]⟩
abbrev S8192x3072 : Shape := ⟨2, ![8192, 3072]⟩
abbrev S1x3072 : Shape := ⟨2, ![1, 3072]⟩
abbrev S2048x1024 : Shape := ⟨2, ![2048, 1024]⟩
abbrev S2048 : Shape := ⟨1, ![2048]⟩
abbrev S1024x2048 : Shape := ⟨2, ![1024, 2048]⟩
abbrev S8192x2048 : Shape := ⟨2, ![8192, 2048]⟩
abbrev S1x2048 : Shape := ⟨2, ![1, 2048]⟩
abbrev S_ : Shape := ⟨0, ![]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S3072x1024, .f32⟩
  | .hbm, ⟨15, _⟩ => ⟨S3072, .f32⟩
  | .hbm, ⟨16, _⟩ => ⟨S1024x3072, .f32⟩
  | .hbm, ⟨17, _⟩ => ⟨S8192x3072, .f32⟩
  | .hbm, ⟨18, _⟩ => ⟨S1x3072, .f32⟩
  | .hbm, ⟨19, _⟩ => ⟨S8192x3072, .f32⟩
  | .hbm, ⟨20, _⟩ => ⟨S8192x3072, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S2048x1024, .f32⟩
  | .hbm, ⟨25, _⟩ => ⟨S2048, .f32⟩
  | .hbm, ⟨26, _⟩ => ⟨S1024x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S1024x1024, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_cst_0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  concatenates_S1024x1024_S1024x1024_S1024x1024_S3072x1024_d0 : Shape.Concatenates [S1024x1024, S1024x1024, S1024x1024] S3072x1024 0
  concatenates_S1024_S1024_S1024_S3072_d0 : Shape.Concatenates [S1024, S1024, S1024] S3072 0
  transposes_S3072x1024_S1024x3072_1_0 : S3072x1024.Transposes [1, 0] S1024x3072
  bcast_S3072_S1x3072_1 : S3072.BroadcastsInDim S1x3072 (![1] : Fin 1 → Fin S1x3072.rank)
  bcast_S1x3072_S8192x3072_0_1 : S1x3072.BroadcastsInDim S8192x3072 (![0, 1] : Fin 2 → Fin S8192x3072.rank)
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  concatenates_S1024x1024_S1024x1024_S2048x1024_d0 : Shape.Concatenates [S1024x1024, S1024x1024] S2048x1024 0
  concatenates_S1024_S1024_S2048_d0 : Shape.Concatenates [S1024, S1024] S2048 0
  transposes_S2048x1024_S1024x2048_1_0 : S2048x1024.Transposes [1, 0] S1024x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  slices_S8192x2048_S8192x1024_0_0 : S8192x2048.Slices ![0, 0] S8192x1024
  slices_S8192x2048_S8192x1024_0_1024 : S8192x2048.Slices ![0, 1024] S8192x1024
  bcast_S_S8192x1024 : S_.BroadcastsInDim S8192x1024 (![] : Fin 0 → Fin S8192x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S1024x3072_S8192x3072_1_0_0_1_n_n_wf : DotDims.WF S8192x1024 S1024x3072 S8192x3072 [1] [0] [0] [1] [] []
  dot_S8192x1024_S1024x2048_S8192x2048_1_0_0_1_n_n_wf : DotDims.WF S8192x1024 S1024x2048 S8192x2048 [1] [0] [0] [1] [] []
  dot_S8192x1024_S1024x1024_S8192x1024_1_0_0_1_n_n_wf : DotDims.WF S8192x1024 S1024x1024 S8192x1024 [1] [0] [0] [1] [] []

variable [Facts₀]

def dot_S8192x1024_S1024x3072_S8192x3072_1_0_0_1_n_n : DotDims S8192x1024 S1024x3072 S8192x3072 where
  lhsContracting := [1]
  rhsContracting := [0]
  lhsNonContracting := [0]
  rhsNonContracting := [1]
  lhsBatch := []
  rhsBatch := []
  wf := dot_S8192x1024_S1024x3072_S8192x3072_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.GruSpec.lean ====
/-
  The gated recurrent cell, one output entry at a time, over the extended reals.

  For one batch row with input row `xr` and previous state row `hr` (each of width 1024), weights `w q k`
  (output `q`, input `k`) and biases `b q`:

    lin a w b q = (Σ k, a k · w q k) + b q
    z q   = logistic (lin xr wz bwz q + lin hr uz buz q)          -- update gate
    r q   = logistic (lin xr wr bwr q + lin hr ur bur q)          -- reset gate
    c q   = tanh (lin xr wh bwh q + lin (r ∘· hr) uh buh q)       -- candidate state
    out q = (1 − z q) · hr q + z q · c q

  `G` is the same over the whole arrays: entry `(i, q)` of the new state is `out q` of row `i`.
-/
import Idealize.ShloMosaic.PureOps.Ideal.Laws
import Idealize.ShloMosaic.Lib.ValueIdx

noncomputable section

namespace Cert.Gru

open Idealize.ShloMosaic Idealize.ShloMosaic.ValueIdx

/-- An affine map's output `q`: the row `a` against row `q` of the weights, plus the bias. -/
def lin (a : Fin 1024 → EReal) (w : Fin 1024 → Fin 1024 → EReal) (b : Fin 1024 → EReal) (q : Fin 1024) : EReal :=
  (∑ k : Fin 1024, a k * w q k) + b q

/-- A gate: the logistic function of the sum of the input's and the state's affine maps. -/
def gate (xr hr : Fin 1024 → EReal) (wx : Fin 1024 → Fin 1024 → EReal) (bx : Fin 1024 → EReal)
    (wh : Fin 1024 → Fin 1024 → EReal) (bh : Fin 1024 → EReal) (q : Fin 1024) : EReal :=
  Ideal.logistic (lin xr wx bx q + lin hr wh bh q)

/-- One row's new state at output `q`. -/
def gruRow (xr hr : Fin 1024 → EReal)
    (wz : Fin 1024 → Fin 1024 → EReal) (bwz : Fin 1024 → EReal) (uz : Fin 1024 → Fin 1024 → EReal) (buz : Fin 1024 → EReal)
    (wr : Fin 1024 → Fin 1024 → EReal) (bwr : Fin 1024 → EReal) (ur : Fin 1024 → Fin 1024 → EReal) (bur : Fin 1024 → EReal)
    (wh : Fin 1024 → Fin 1024 → EReal) (bwh : Fin 1024 → EReal) (uh : Fin 1024 → Fin 1024 → EReal) (buh : Fin 1024 → EReal)
    (q : Fin 1024) : EReal :=
  (1 - gate xr hr wz bwz uz buz q) * hr q
    + gate xr hr wz bwz uz buz q
      * Ideal.tanh (lin xr wh bwh q + lin (fun k => gate xr hr wr bwr ur bur k * hr k) uh buh q)

abbrev SBD : Shape := ⟨2, ![8192, 1024]⟩
abbrev SDD : Shape := ⟨2, ![1024, 1024]⟩
abbrev SD : Shape := ⟨1, ![1024]⟩

/-- The new state as one function of the fourteen argument arrays (in the order of the entry point's parameters). -/
def G (x h : SBD.Idx → EReal)
    (wz : SDD.Idx → EReal) (bwz : SD.Idx → EReal) (uz : SDD.Idx → EReal) (buz : SD.Idx → EReal)
    (wr : SDD.Idx → EReal) (bwr : SD.Idx → EReal) (ur : SDD.Idx → EReal) (bur : SD.Idx → EReal)
    (wh : SDD.Idx → EReal) (bwh : SD.Idx → EReal) (uh : SDD.Idx → EReal) (buh : SD.Idx → EReal) : SBD.Idx → EReal := fun i =>
  gruRow (fun k => x (ix2 (i 0) k)) (fun k => h (ix2 (i 0) k))
    (fun q k => wz (ix2 q k)) (fun q => bwz (ix1 q)) (fun q k => uz (ix2 q k)) (fun q => buz (ix1 q))
    (fun q k => wr (ix2 q k)) (fun q => bwr (ix1 q)) (fun q k => ur (ix2 q k)) (fun q => bur (ix1 q))
    (fun q k => wh (ix2 q k)) (fun q => bwh (ix1 q)) (fun q k => uh (ix2 q k)) (fun q => buh (ix1 q))
    (i 1)

end Cert.Gru

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.KernelBody.lean ====
/-
  The gated recurrent cell's kernel body, one stored entry at a time.

  The body works on a block of 256 rows.  Each of its six matrix products takes a block (the input, the previous
  state, or the reset gate times the previous state) against a weight matrix that arrives already transposed —
  entry (k, q) is the weight of input k for output q — and adds a bias row repeated down the 256 rows; at (p, q)
  that is the affine map lin of row p.  The update gate and the reset gate are the logistic function of a sum of
  two such maps, the candidate state the hyperbolic tangent of one, and the stored value at (p, q) is
  (1 − z) · h + z · c: the specification's gruRow of row p at q.
-/
import proofs.«161734_j27410481283547_1_alg».proof.Proof.Gen.KernelIdeal.Skeleton
import proofs.«161734_j27410481283547_1_alg».proof.Proof.GruSpec
import proofs.«161734_j27410481283547_1_alg».proof.Proof.LibRowOps
import Idealize.ShloMosaic.Lib.IdealHost
import Idealize.ShloMosaic.Lib.ValueIdx
import Idealize.ShloMosaic.Lib.Pipeline.Value

noncomputable section

namespace Cert.Gru.Body

open Cert.KernelIdeal Cert.KernelIdeal.Gen Idealize.ShloMosaic Idealize.ShloMosaic.ValueIdx

/-- A block against a transposed weight matrix, plus the bias row repeated down the rows: at (p, q) it is the affine
    map of row p of the block, output q. -/
theorem affine_apply (A : FVec Ideal S256x1024 .bf16) (W : FVec Ideal S1024x1024 .bf16) (B : FVec Ideal S1x1024 .f32)
    (p : Fin 256) (q : Fin 1024) :
    addf (matmul dot_S256x1024_S1024x1024_S256x1024_1_0_0_1_n_n none A
            (shapeCast S1024x1024 W shapeCasts_S1024x1024_S1024x1024) (constant (F := Ideal) S256x1024 .f32 0x00000000#32))
         (broadcastTo S256x1024 (shapeCast S1x1024 B shapeCasts_S1x1024_S1x1024) broadcasts_S1x1024_S256x1024) (ix2 p q)
      = Cert.Gru.lin (fun k => A (ix2 p k)) (fun q k => W (ix2 k q)) (fun q => B (ix2 (0 : Fin 1) q)) q := by
  show matmul dot_S256x1024_S1024x1024_S256x1024_1_0_0_1_n_n none A
            (shapeCast S1024x1024 W shapeCasts_S1024x1024_S1024x1024) (constant (F := Ideal) S256x1024 .f32 0x00000000#32) (ix2 p q)
        + broadcastTo S256x1024 (shapeCast S1x1024 B shapeCasts_S1x1024_S1x1024) broadcasts_S1x1024_S256x1024 (ix2 p q) = _
  rw [shapeCast_self W]
  refine (congrArg₂ (· + ·) (Cert.RowOps.matmul_apply dot_S256x1024_S1024x1024_S256x1024_1_0_0_1_n_n_wf none A W p q)
    (Cert.RowOps.rowParam_spread_apply B shapeCasts_S1x1024_S1x1024 broadcasts_S1x1024_S256x1024 p q)).trans ?_
  rfl

/-- The reset gate's pre-activation at (p, c): the input row's affine map plus the state row's, output c. -/
theorem resetPre_apply (X H : Vec Ideal S256x1024 .f32) (WrT UrT : Vec Ideal S1024x1024 .bf16) (Bwr Bur : Vec Ideal S1x1024 .f32)
    (p : Fin 256) (c : Fin 1024) :
    k0_pay5 (F := Ideal) X H WrT Bwr UrT Bur (ix2 p c)
      = Cert.Gru.lin (fun k => X (ix2 p k)) (fun q k => WrT (ix2 k q)) (fun q => Bwr (ix2 (0 : Fin 1) q)) c
        + Cert.Gru.lin (fun k => H (ix2 p k)) (fun q k => UrT (ix2 k q)) (fun q => Bur (ix2 (0 : Fin 1) q)) c := by
  unfold k0_pay5
  exact congrArg₂ (· + ·) (affine_apply (k0_pay2 X) WrT Bwr p c) (affine_apply (k0_pay3 H) UrT Bur p c)

/-- The update gate at (p, q): the logistic function of the input row's affine map plus the state row's. -/
theorem updateGate_apply (X H : Vec Ideal S256x1024 .f32) (WzT UzT : Vec Ideal S1024x1024 .bf16) (Bwz Buz : Vec Ideal S1x1024 .f32)
    (p : Fin 256) (q : Fin 1024) :
    k0_pay4 (F := Ideal) X H WzT Bwz UzT Buz (ix2 p q)
      = Cert.Gru.gate (fun k => X (ix2 p k)) (fun k => H (ix2 p k)) (fun q k => WzT (ix2 k q)) (fun q => Bwz (ix2 (0 : Fin 1) q))
          (fun q k => UzT (ix2 k q)) (fun q => Buz (ix2 (0 : Fin 1) q)) q := by
  unfold k0_pay4
  exact congrArg Ideal.logistic
    (congrArg₂ (· + ·) (affine_apply (k0_pay2 X) WzT Bwz p q) (affine_apply (k0_pay3 H) UzT Buz p q))

/-- The reset gate times the previous state, at (p, k), from the reset gate's pre-activation. -/
theorem resetState_apply (X H : Vec Ideal S256x1024 .f32) (WrT UrT : Vec Ideal S1024x1024 .bf16) (Bwr Bur : Vec Ideal S1x1024 .f32)
    (p : Fin 256) (k : Fin 1024) :
    Ideal.logistic (k0_pay5 (F := Ideal) X H WrT Bwr UrT Bur (ix2 p k)) * H (ix2 p k)
      = Cert.Gru.gate (fun k => X (ix2 p k)) (fun k => H (ix2 p k)) (fun q k => WrT (ix2 k q)) (fun q => Bwr (ix2 (0 : Fin 1) q))
          (fun q k => UrT (ix2 k q)) (fun q => Bur (ix2 (0 : Fin 1) q)) k * H (ix2 p k) :=
  congrArg (fun t => Ideal.logistic t * H (ix2 p k)) (resetPre_apply X H WrT UrT Bwr Bur p k)

/-- The new state from its three parts: equal gates and equal candidate pre-activations give equal entries. -/
theorem blend_congr {one z z' h c c' : EReal} (h1 : one = 1) (hz : z = z') (hc : c = c') :
    (one - z) * h + z * Ideal.tanh c = (1 - z') * h + z' * Ideal.tanh c' := by
  subst h1 hz hc; rfl

/-- The body's stored value at (p, q) is the cell's new state of row p at q. -/
theorem pay_apply (X H : Vec Ideal S256x1024 .f32) (WzT WrT WhT UzT UrT UhT : Vec Ideal S1024x1024 .bf16)
    (Bwz Bwr Bwh Buz Bur Buh : Vec Ideal S1x1024 .f32) (p : Fin 256) (q : Fin 1024) :
    k0_pay1 (F := Ideal) H (k0_pay2 X) (k0_pay4 X H WzT Bwz UzT Buz) (k0_pay5 X H WrT Bwr UrT Bur) WhT Bwh UhT Buh (ix2 p q)
      = Cert.Gru.gruRow (fun k => X (ix2 p k)) (fun k => H (ix2 p k))
          (fun q k => WzT (ix2 k q)) (fun q => Bwz (ix2 (0 : Fin 1) q)) (fun q k => UzT (ix2 k q)) (fun q => Buz (ix2 (0 : Fin 1) q))
          (fun q k => WrT (ix2 k q)) (fun q => Bwr (ix2 (0 : Fin 1) q)) (fun q k => UrT (ix2 k q)) (fun q => Bur (ix2 (0 : Fin 1) q))
          (fun q k => WhT (ix2 k q)) (fun q => Bwh (ix2 (0 : Fin 1) q)) (fun q k => UhT (ix2 k q)) (fun q => Buh (ix2 (0 : Fin 1) q)) q := by
  have hcand :
      addf (addf (matmul dot_S256x1024_S1024x1024_S256x1024_1_0_0_1_n_n none (k0_pay2 (F := Ideal) X)
                    (shapeCast S1024x1024 WhT shapeCasts_S1024x1024_S1024x1024) (constant (F := Ideal) S256x1024 .f32 0x00000000#32))
                 (broadcastTo S256x1024 (shapeCast S1x1024 Bwh shapeCasts_S1x1024_S1x1024) broadcasts_S1x1024_S256x1024))
           (addf (matmul dot_S256x1024_S1024x1024_S256x1024_1_0_0_1_n_n none
                    (truncf .bf16 (mulf (logistic (k0_pay5 (F := Ideal) X H WrT Bwr UrT Bur)) H) bitsLt_bf16_f32)
                    (shapeCast S1024x1024 UhT shapeCasts_S1024x1024_S1024x1024) (constant (F := Ideal) S256x1024 .f32 0x00000000#32))
                 (broadcastTo S256x1024 (shapeCast S1x1024 Buh shapeCasts_S1x1024_S1x1024) broadcasts_S1x1024_S256x1024)) (ix2 p q)
        = Cert.Gru.lin (fun k => X (ix2 p k)) (fun q k => WhT (ix2 k q)) (fun q => Bwh (ix2 (0 : Fin 1) q)) q
          + Cert.Gru.lin (fun k => Cert.Gru.gate (fun k => X (ix2 p k)) (fun k => H (ix2 p k)) (fun q k => WrT (ix2 k q))
                (fun q => Bwr (ix2 (0 : Fin 1) q)) (fun q k => UrT (ix2 k q)) (fun q => Bur (ix2 (0 : Fin 1) q)) k * H (ix2 p k))
              (fun q k => UhT (ix2 k q)) (fun q => Buh (ix2 (0 : Fin 1) q)) q :=
    congrArg₂ (· + ·) (affine_apply (k0_pay2 X) WhT Bwh p q)
      ((affine_apply (truncf .bf16 (mulf (logistic (k0_pay5 (F := Ideal) X H WrT Bwr UrT Bur)) H) bitsLt_bf16_f32) UhT Buh p q).trans
        (congrArg (fun a => Cert.Gru.lin a (fun q k => UhT (ix2 k q)) (fun q => Buh (ix2 (0 : Fin 1) q)) q)
          (funext fun k => resetState_apply X H WrT UrT Bwr Bur p k)))
  unfold k0_pay1
  exact blend_congr Ideal.ofBits_one_f32 (updateGate_apply X H WzT UzT Bwz Buz p q) hcand

end Cert.Gru.Body

end
-- ==== Proof.KernelArray.lean ====
/-
  The kernel's result array, entry by entry.

  The launch runs the body at 32 grid points. Point `t` is handed rows `256 t … 256 t + 255` of the input and of the
  previous state, the six weight matrices whole — each transposed beforehand, so that its entry `(k, q)` is the
  weight of input `k` for output `q` — and the six biases as single rows; it writes back rows `256 t … 256 t + 255`
  of the result. The body's stored entry at `(p, q)` is the new state of its row `p` at column `q`, so what point `t`
  writes back is block `t` of the new state of the argument arrays; the 32 blocks tile the result array, which
  therefore ends holding the new state `G` of the fourteen arguments.
-/
import proofs.«161734_j27410481283547_1_alg».proof.Proof.Gen.KernelIdeal.Value
import proofs.«161734_j27410481283547_1_alg».proof.Proof.GruSpec
import proofs.«161734_j27410481283547_1_alg».proof.Proof.KernelBody
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Gru.Arr

open Cert.KernelIdeal Cert.KernelIdeal.Gen Cert.KernelIdeal.Value

variable (m : (ℓ : Loc nD τ sig) → Buf (Elt Ideal) ℓ) (ρ : Dev nD → PrngReg)

/-! ## The arrays the host prepares before the launch, read at an index -/

/-- A weight matrix transposed (and its format changed, which is the identity on the extended reals): entry `(k, q)`
    is the weight's entry `(q, k)`. -/
theorem transposed_apply (w : S1024x1024.Idx → EReal) (k q : Fin 1024) :
    truncf (F := Ideal) .bf16 (transpose S1024x1024 [1, 0] w transposes_S1024x1024_S1024x1024_1_0) bitsLt_bf16_f32 (ix2 k q) = w (ix2 q k) :=
  transpose_apply [1, 0] w transposes_S1024x1024_S1024x1024_1_0 (ix2 k q) (ix2 q k) (fun b => match b with
    | ⟨0, _⟩ => rfl
    | ⟨1, _⟩ => rfl)

/-- A bias vector laid out as one row: entry `(0, q)` is the bias's entry `q`. -/
theorem asRow_apply (b : S1024.Idx → EReal) (q : Fin 1024) :
    shapeCast S1x1024 b shapeCasts_S1024_S1x1024 (ix2 (0 : Fin 1) q) = b (ix1 q) :=
  shapeCast_apply b shapeCasts_S1024_S1x1024 (ix2 (0 : Fin 1) q) (ix1 q) (by
    rw [Shape.rowMajor_val_two, Shape.rowMajor_val_one]
    show q.val = 0 * 1024 + q.val
    omega)

theorem V_wzT (c : Dev nD) : (V m c main_v1 : S1024x1024.Idx → EReal)
    = truncf (F := Ideal) .bf16 (transpose S1024x1024 [1, 0] (m ((c : Thread nD τ).loc main_arg2)) transposes_S1024x1024_S1024x1024_1_0) bitsLt_bf16_f32 := by
  dsimp only [Gen.V, Gen.hostOps0]; after_results
theorem V_wrT (c : Dev nD) : (V m c main_v3 : S1024x1024.Idx → EReal)
    = truncf (F := Ideal) .bf16 (transpose S1024x1024 [1, 0] (m ((c : Thread nD τ).loc main_arg6)) transposes_S1024x1024_S1024x1024_1_0) bitsLt_bf16_f32 := by
  dsimp only [Gen.V, Gen.hostOps0]; after_results
theorem V_whT (c : Dev nD) : (V m c main_v5 : S1024x1024.Idx → EReal)
    = truncf (F := Ideal) .bf16 (transpose S1024x1024 [1, 0] (m ((c : Thread nD τ).loc main_arg10)) transposes_S1024x1024_S1024x1024_1_0) bitsLt_bf16_f32 := by
  dsimp only [Gen.V, Gen.hostOps0]; after_results
theorem V_uzT (c : Dev nD) : (V m c main_v7 : S1024x1024.Idx → EReal)
    = truncf (F := Ideal) .bf16 (transpose S1024x1024 [1, 0] (m ((c : Thread nD τ).loc main_arg4)) transposes_S1024x1024_S1024x1024_1_0) bitsLt_bf16_f32 := by
  dsimp only [Gen.V, Gen.hostOps0]; after_results
theorem V_urT (c : Dev nD) : (V m c main_v9 : S1024x1024.Idx → EReal)
    = truncf (F := Ideal) .bf16 (transpose S1024x1024 [1, 0] (m ((c : Thread nD τ).loc main_arg8)) transposes_S1024x1024_S1024x1024_1_0) bitsLt_bf16_f32 := by
  dsimp only [Gen.V, Gen.hostOps0]; after_results
theorem V_uhT (c : Dev nD) : (V m c main_v11 : S1024x1024.Idx → EReal)
    = truncf (F := Ideal) .bf16 (transpose S1024x1024 [1, 0] (m ((c : Thread nD τ).loc main_arg12)) transposes_S1024x1024_S1024x1024_1_0) bitsLt_bf16_f32 := by
  dsimp only [Gen.V, Gen.hostOps0]; after_results

theorem V_bwz (c : Dev nD) : (V m c main_v12 : S1x1024.Idx → EReal)
    = shapeCast S1x1024 (m ((c : Thread nD τ).loc main_arg3)) shapeCasts_S1024_S1x1024 := by
  dsimp only [Gen.V, Gen.hostOps0]; after_results; rfl
theorem V_bwr (c : Dev nD) : (V m c main_v13 : S1x1024.Idx → EReal)
    = shapeCast S1x1024 (m ((c : Thread nD τ).loc main_arg7)) shapeCasts_S1024_S1x1024 := by
  dsimp only [Gen.V, Gen.hostOps0]; after_results; rfl
theorem V_bwh (c : Dev nD) : (V m c main_v14 : S1x1024.Idx → EReal)
    = shapeCast S1x1024 (m ((c : Thread nD τ).loc main_arg11)) shapeCasts_S1024_S1x1024 := by
  dsimp only [Gen.V, Gen.hostOps0]; after_results; rfl
theorem V_buz (c : Dev nD) : (V m c main_v15 : S1x1024.Idx → EReal)
    = shapeCast S1x1024 (m ((c : Thread nD τ).loc main_arg5)) shapeCasts_S1024_S1x1024 := by
  dsimp only [Gen.V, Gen.hostOps0]; after_results; rfl
theorem V_bur (c : Dev nD) : (V m c main_v16 : S1x1024.Idx → EReal)
    = shapeCast S1x1024 (m ((c : Thread nD τ).loc main_arg9)) shapeCasts_S1024_S1x1024 := by
  dsimp only [Gen.V, Gen.hostOps0]; after_results; rfl
theorem V_buh (c : Dev nD) : (V m c main_v17 : S1x1024.Idx → EReal)
    = shapeCast S1x1024 (m ((c : Thread nD τ).loc main_arg13)) shapeCasts_S1024_S1x1024 := by
  dsimp only [Gen.V, Gen.hostOps0]; after_results; rfl

/-! ## Each window's block at a grid point, read at an index -/

/-- The printed index maps over the 32 grid points: the two row-tiled inputs and the output take block `t` of rows,
    every weight and every bias window stays at block `(0, 0)`. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0 :=
  (by decide +kernel : ∀ t : Fin grid0.N, _)

theorem idx_weights : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem idx_biases : ∀ t : Fin cfg0.N, (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-- The input's block at point `t` is rows `256 t … 256 t + 255` of the input. -/
theorem xblk_apply (c : Dev nD) (t : Fin cfg0.N) (p : Fin 256) (k : Fin 1024) (r : Fin 8192) (hr : r.val = 256 * t.val + p.val) :
    (iblk m c 0 t : S256x1024.Idx → EReal) (ix2 p k) = (m ((c : Thread nD τ).loc main_arg0) : S8192x1024.Idx → EReal) (ix2 r k) := by
  obtain ⟨e0, e1, -⟩ := idx_rows t
  unfold iblk
  rw [View.read_apply]
  show V m c main_arg0 _ = _
  rw [V_main_arg0 m c]
  refine congrArg (m ((c : Thread nD τ).loc main_arg0)) (funext fun a => Fin.ext ?_)
  match a with
  | ⟨0, _⟩ => show win0_0.index t (0 : Fin 2) * 256 + 1 * p.val = r.val; omega
  | ⟨1, _⟩ => show win0_0.index t (1 : Fin 2) * 1024 + 1 * k.val = k.val; omega

/-- The previous state's block at point `t` is rows `256 t … 256 t + 255` of the previous state. -/
theorem hblk_apply (c : Dev nD) (t : Fin cfg0.N) (p : Fin 256) (k : Fin 1024) (r : Fin 8192) (hr : r.val = 256 * t.val + p.val) :
    (iblk m c 1 t : S256x1024.Idx → EReal) (ix2 p k) = (m ((c : Thread nD τ).loc main_arg1) : S8192x1024.Idx → EReal) (ix2 r k) := by
  obtain ⟨-, -, e0, e1, -⟩ := idx_rows t
  unfold iblk
  rw [View.read_apply]
  show V m c main_arg1 _ = _
  rw [V_main_arg1 m c]
  refine congrArg (m ((c : Thread nD τ).loc main_arg1)) (funext fun a => Fin.ext ?_)
  match a with
  | ⟨0, _⟩ => show win0_1.index t (0 : Fin 2) * 256 + 1 * p.val = r.val; omega
  | ⟨1, _⟩ => show win0_1.index t (1 : Fin 2) * 1024 + 1 * k.val = k.val; omega

/-- The update gate's input-side weights as staged (whole, at every point): entry `(k, q)` is `w_z (q, k)`. -/
theorem wzblk_apply (c : Dev nD) (t : Fin cfg0.N) (k q : Fin 1024) :
    (iblk m c 2 t : S1024x1024.Idx → EReal) (ix2 k q) = (m ((c : Thread nD τ).loc main_arg2) : S1024x1024.Idx → EReal) (ix2 q k) := by
  obtain ⟨⟨e0, e1⟩, -⟩ := idx_weights t
  unfold iblk
  rw [View.read_apply]
  show (V m c main_v1 : S1024x1024.Idx → EReal) _ = _
  rw [V_wzT m c]
  have he : (((cfg0.win 2).blk t).view.emb (ix2 k q) : S1024x1024.Idx) = ix2 k q := funext fun a => Fin.ext (by
    match a with
    | ⟨0, _⟩ => show win0_2.index t (0 : Fin 2) * 1024 + 1 * k.val = k.val; omega
    | ⟨1, _⟩ => show win0_2.index t (1 : Fin 2) * 1024 + 1 * q.val = q.val; omega)
  rw [he]
  exact transposed_apply _ k q

/-- The reset gate's input-side weights as staged: entry `(k, q)` is `w_r (q, k)`. -/
theorem wrblk_apply (c : Dev nD) (t : Fin cfg0.N) (k q : Fin 1024) :
    (iblk m c 3 t : S1024x1024.Idx → EReal) (ix2 k q) = (m ((c : Thread nD τ).loc main_arg6) : S1024x1024.Idx → EReal) (ix2 q k) := by
  obtain ⟨-, ⟨e0, e1⟩, -⟩ := idx_weights t
  unfold iblk
  rw [View.read_apply]
  show (V m c main_v3 : S1024x1024.Idx → EReal) _ = _
  rw [V_wrT m c]
  have he : (((cfg0.win 3).blk t).view.emb (ix2 k q) : S1024x1024.Idx) = ix2 k q := funext fun a => Fin.ext (by
    match a with
    | ⟨0, _⟩ => show win0_3.index t (0 : Fin 2) * 1024 + 1 * k.val = k.val; omega
    | ⟨1, _⟩ => show win0_3.index t (1 : Fin 2) * 1024 + 1 * q.val = q.val; omega)
  rw [he]
  exact transposed_apply _ k q

/-- The candidate's input-side weights as staged: entry `(k, q)` is `w_h (q, k)`. -/
theorem whblk_apply (c : Dev nD) (t : Fin cfg0.N) (k q : Fin 1024) :
    (iblk m c 4 t : S1024x1024.Idx → EReal) (ix2 k q) = (m ((c : Thread nD τ).loc main_arg10) : S1024x1024.Idx → EReal) (ix2 q k) := by
  obtain ⟨-, -, ⟨e0, e1⟩, -⟩ := idx_weights t
  unfold iblk
  rw [View.read_apply]
  show (V m c main_v5 : S1024x1024.Idx → EReal) _ = _
  rw [V_whT m c]
  have he : (((cfg0.win 4).blk t).view.emb (ix2 k q) : S1024x1024.Idx) = ix2 k q := funext fun a => Fin.ext (by
    match a with
    | ⟨0, _⟩ => show win0_4.index t (0 : Fin 2) * 1024 + 1 * k.val = k.val; omega
    | ⟨1, _⟩ => show win0_4.index t (1 : Fin 2) * 1024 + 1 * q.val = q.val; omega)
  rw [he]
  exact transposed_apply _ k q

/-- The update gate's state-side weights as staged: entry `(k, q)` is `u_z (q, k)`. -/
theorem uzblk_apply (c : Dev nD) (t : Fin cfg0.N) (k q : Fin 1024) :
    (iblk m c 5 t : S1024x1024.Idx → EReal) (ix2 k q) = (m ((c : Thread nD τ).loc main_arg4) : S1024x1024.Idx → EReal) (ix2 q k) := by
  obtain ⟨-, -, -, ⟨e0, e1⟩, -⟩ := idx_weights t
  unfold iblk
  rw [View.read_apply]
  show (V m c main_v7 : S1024x1024.Idx → EReal) _ = _
  rw [V_uzT m c]
  have he : (((cfg0.win 5).blk t).view.emb (ix2 k q) : S1024x1024.Idx) = ix2 k q := funext fun a => Fin.ext (by
    match a with
    | ⟨0, _⟩ => show win0_5.index t (0 : Fin 2) * 1024 + 1 * k.val = k.val; omega
    | ⟨1, _⟩ => show win0_5.index t (1 : Fin 2) * 1024 + 1 * q.val = q.val; omega)
  rw [he]
  exact transposed_apply _ k q

/-- The reset gate's state-side weights as staged: entry `(k, q)` is `u_r (q, k)`. -/
theorem urblk_apply (c : Dev nD) (t : Fin cfg0.N) (k q : Fin 1024) :
    (iblk m c 6 t : S1024x1024.Idx → EReal) (ix2 k q) = (m ((c : Thread nD τ).loc main_arg8) : S1024x1024.Idx → EReal) (ix2 q k) := by
  obtain ⟨-, -, -, -, ⟨e0, e1⟩, -⟩ := idx_weights t
  unfold iblk
  rw [View.read_apply]
  show (V m c main_v9 : S1024x1024.Idx → EReal) _ = _
  rw [V_urT m c]
  have he : (((cfg0.win 6).blk t).view.emb (ix2 k q) : S1024x1024.Idx) = ix2 k q := funext fun a => Fin.ext (by
    match a with
    | ⟨0, _⟩ => show win0_6.index t (0 : Fin 2) * 1024 + 1 * k.val = k.val; omega
    | ⟨1, _⟩ => show win0_6.index t (1 : Fin 2) * 1024 + 1 * q.val = q.val; omega)
  rw [he]
  exact transposed_apply _ k q

/-- The candidate's state-side weights as staged: entry `(k, q)` is `u_h (q, k)`. -/
theorem uhblk_apply (c : Dev nD) (t : Fin cfg0.N) (k q : Fin 1024) :
    (iblk m c 7 t : S1024x1024.Idx → EReal) (ix2 k q) = (m ((c : Thread nD τ).loc main_arg12) : S1024x1024.Idx → EReal) (ix2 q k) := by
  obtain ⟨-, -, -, -, -, e0, e1⟩ := idx_weights t
  unfold iblk
  rw [View.read_apply]
  show (V m c main_v11 : S1024x1024.Idx → EReal) _ = _
  rw [V_uhT m c]
  have he : (((cfg0.win 7).blk t).view.emb (ix2 k q) : S1024x1024.Idx) = ix2 k q := funext fun a => Fin.ext (by
    match a with
    | ⟨0, _⟩ => show win0_7.index t (0 : Fin 2) * 1024 + 1 * k.val = k.val; omega
    | ⟨1, _⟩ => show win0_7.index t (1 : Fin 2) * 1024 + 1 * q.val = q.val; omega)
  rw [he]
  exact transposed_apply _ k q

/-- The update gate's input-side bias as staged (one row): entry `(0, q)` is `b_wz q`. -/
theorem bwzblk_apply (c : Dev nD) (t : Fin cfg0.N) (q : Fin 1024) :
    (iblk m c 8 t : S1x1024.Idx → EReal) (ix2 (0 : Fin 1) q) = (m ((c : Thread nD τ).loc main_arg3) : S1024.Idx → EReal) (ix1 q) := by
  obtain ⟨⟨e0, e1⟩, -⟩ := idx_biases t
  unfold iblk
  rw [View.read_apply]
  show (V m c main_v12 : S1x1024.Idx → EReal) _ = _
  rw [V_bwz m c]
  have he : (((cfg0.win 8).blk t).view.emb (ix2 (0 : Fin 1) q) : S1x1024.Idx) = ix2 (0 : Fin 1) q := funext fun a => Fin.ext (by
    match a with
    | ⟨0, _⟩ => show win0_8.index t (0 : Fin 2) * 1 + 1 * 0 = 0; omega
    | ⟨1, _⟩ => show win0_8.index t (1 : Fin 2) * 1024 + 1 * q.val = q.val; omega)
  rw [he]
  exact asRow_apply _ q

/-- The reset gate's input-side bias as staged: entry `(0, q)` is `b_wr q`. -/
theorem bwrblk_apply (c : Dev nD) (t : Fin cfg0.N) (q : Fin 1024) :
    (iblk m c 9 t : S1x1024.Idx → EReal) (ix2 (0 : Fin 1) q) = (m ((c : Thread nD τ).loc main_arg7) : S1024.Idx → EReal) (ix1 q) := by
  obtain ⟨-, ⟨e0, e1⟩, -⟩ := idx_biases t
  unfold iblk
  rw [View.read_apply]
  show (V m c main_v13 : S1x1024.Idx → EReal) _ = _
  rw [V_bwr m c]
  have he : (((cfg0.win 9).blk t).view.emb (ix2 (0 : Fin 1) q) : S1x1024.Idx) = ix2 (0 : Fin 1) q := funext fun a => Fin.ext (by
    match a with
    | ⟨0, _⟩ => show win0_9.index t (0 : Fin 2) * 1 + 1 * 0 = 0; omega
    | ⟨1, _⟩ => show win0_9.index t (1 : Fin 2) * 1024 + 1 * q.val = q.val; omega)
  rw [he]
  exact asRow_apply _ q

/-- The candidate's input-side bias as staged: entry `(0, q)` is `b_wh q`. -/
theorem bwhblk_apply (c : Dev nD) (t : Fin cfg0.N) (q : Fin 1024) :
    (iblk m c 10 t : S1x1024.Idx → EReal) (ix2 (0 : Fin 1) q) = (m ((c : Thread nD τ).loc main_arg11) : S1024.Idx → EReal) (ix1 q) := by
  obtain ⟨-, -, ⟨e0, e1⟩, -⟩ := idx_biases t
  unfold iblk
  rw [View.read_apply]
  show (V m c main_v14 : S1x1024.Idx → EReal) _ = _
  rw [V_bwh m c]
  have he : (((cfg0.win 10).blk t).view.emb (ix2 (0 : Fin 1) q) : S1x1024.Idx) = ix2 (0 : Fin 1) q := funext fun a => Fin.ext (by
    match a with
    | ⟨0, _⟩ => show win0_10.index t (0 : Fin 2) * 1 + 1 * 0 = 0; omega
    | ⟨1, _⟩ => show win0_10.index t (1 : Fin 2) * 1024 + 1 * q.val = q.val; omega)
  rw [he]
  exact asRow_apply _ q

/-- The update gate's state-side bias as staged: entry `(0, q)` is `b_uz q`. -/
theorem buzblk_apply (c : Dev nD) (t : Fin cfg0.N) (q : Fin 1024) :
    (iblk m c 11 t : S1x1024.Idx → EReal) (ix2 (0 : Fin 1) q) = (m ((c : Thread nD τ).loc main_arg5) : S1024.Idx → EReal) (ix1 q) := by
  obtain ⟨-, -, -, ⟨e0, e1⟩, -⟩ := idx_biases t
  unfold iblk
  rw [View.read_apply]
  show (V m c main_v15 : S1x1024.Idx → EReal) _ = _
  rw [V_buz m c]
  have he : (((cfg0.win 11).blk t).view.emb (ix2 (0 : Fin 1) q) : S1x1024.Idx) = ix2 (0 : Fin 1) q := funext fun a => Fin.ext (by
    match a with
    | ⟨0, _⟩ => show win0_11.index t (0 : Fin 2) * 1 + 1 * 0 = 0; omega
    | ⟨1, _⟩ => show win0_11.index t (1 : Fin 2) * 1024 + 1 * q.val = q.val; omega)
  rw [he]
  exact asRow_apply _ q

/-- The reset gate's state-side bias as staged: entry `(0, q)` is `b_ur q`. -/
theorem burblk_apply (c : Dev nD) (t : Fin cfg0.N) (q : Fin 1024) :
    (iblk m c 12 t : S1x1024.Idx → EReal) (ix2 (0 : Fin 1) q) = (m ((c : Thread nD τ).loc main_arg9) : S1024.Idx → EReal) (ix1 q) := by
  obtain ⟨-, -, -, -, ⟨e0, e1⟩, -⟩ := idx_biases t
  unfold iblk
  rw [View.read_apply]
  show (V m c main_v16 : S1x1024.Idx → EReal) _ = _
  rw [V_bur m c]
  have he : (((cfg0.win 12).blk t).view.emb (ix2 (0 : Fin 1) q) : S1x1024.Idx) = ix2 (0 : Fin 1) q := funext fun a => Fin.ext (by
    match a with
    | ⟨0, _⟩ => show win0_12.index t (0 : Fin 2) * 1 + 1 * 0 = 0; omega
    | ⟨1, _⟩ => show win0_12.index t (1 : Fin 2) * 1024 + 1 * q.val = q.val; omega)
  rw [he]
  exact asRow_apply _ q

/-- The candidate's state-side bias as staged: entry `(0, q)` is `b_uh q`. -/
theorem buhblk_apply (c : Dev nD) (t : Fin cfg0.N) (q : Fin 1024) :
    (iblk m c 13 t : S1x1024.Idx → EReal) (ix2 (0 : Fin 1) q) = (m ((c : Thread nD τ).loc main_arg13) : S1024.Idx → EReal) (ix1 q) := by
  obtain ⟨-, -, -, -, -, e0, e1⟩ := idx_biases t
  unfold iblk
  rw [View.read_apply]
  show (V m c main_v17 : S1x1024.Idx → EReal) _ = _
  rw [V_buh m c]
  have he : (((cfg0.win 13).blk t).view.emb (ix2 (0 : Fin 1) q) : S1x1024.Idx) = ix2 (0 : Fin 1) q := funext fun a => Fin.ext (by
    match a with
    | ⟨0, _⟩ => show win0_13.index t (0 : Fin 2) * 1 + 1 * 0 = 0; omega
    | ⟨1, _⟩ => show win0_13.index t (1 : Fin 2) * 1024 + 1 * q.val = q.val; omega)
  rw [he]
  exact asRow_apply _ q

/-! ## What a grid point writes back, and the whole array after the run -/

/-- Equal rows, weights and biases give equal entries of the new state. -/
theorem gruRow_congr {xr xr' hr hr' : Fin 1024 → EReal}
    {wz wz' uz uz' wr wr' ur ur' wh wh' uh uh' : Fin 1024 → Fin 1024 → EReal}
    {bwz bwz' buz buz' bwr bwr' bur bur' bwh bwh' buh buh' : Fin 1024 → EReal} {q q' : Fin 1024}
    (h1 : ∀ k, xr k = xr' k) (h2 : ∀ k, hr k = hr' k)
    (h3 : ∀ q k, wz q k = wz' q k) (h4 : ∀ q, bwz q = bwz' q) (h5 : ∀ q k, uz q k = uz' q k) (h6 : ∀ q, buz q = buz' q)
    (h7 : ∀ q k, wr q k = wr' q k) (h8 : ∀ q, bwr q = bwr' q) (h9 : ∀ q k, ur q k = ur' q k) (h10 : ∀ q, bur q = bur' q)
    (h11 : ∀ q k, wh q k = wh' q k) (h12 : ∀ q, bwh q = bwh' q) (h13 : ∀ q k, uh q k = uh' q k) (h14 : ∀ q, buh q = buh' q)
    (hq : q = q') :
    gruRow xr hr wz bwz uz buz wr bwr ur bur wh bwh uh buh q
      = gruRow xr' hr' wz' bwz' uz' buz' wr' bwr' ur' bur' wh' bwh' uh' buh' q' := by
  obtain rfl : xr = xr' := funext h1
  obtain rfl : hr = hr' := funext h2
  obtain rfl : wz = wz' := funext fun q => funext (h3 q)
  obtain rfl : bwz = bwz' := funext h4
  obtain rfl : uz = uz' := funext fun q => funext (h5 q)
  obtain rfl : buz = buz' := funext h6
  obtain rfl : wr = wr' := funext fun q => funext (h7 q)
  obtain rfl : bwr = bwr' := funext h8
  obtain rfl : ur = ur' := funext fun q => funext (h9 q)
  obtain rfl : bur = bur' := funext h10
  obtain rfl : wh = wh' := funext fun q => funext (h11 q)
  obtain rfl : bwh = bwh' := funext h12
  obtain rfl : uh = uh' := funext fun q => funext (h13 q)
  obtain rfl : buh = buh' := funext h14
  subst hq
  rfl

/-- The body's stored block at a local index `y`: the new state of the block's row `y 0` at column `y 1`. -/
theorem stored_apply (X H : Vec Ideal S256x1024 .f32) (WzT WrT WhT UzT UrT UhT : Vec Ideal S1024x1024 .bf16)
    (Bwz Bwr Bwh Buz Bur Buh : Vec Ideal S1x1024 .f32) (y : S256x1024.Idx) :
    k0_pay1 (F := Ideal) H (k0_pay2 X) (k0_pay4 X H WzT Bwz UzT Buz) (k0_pay5 X H WrT Bwr UrT Bur) WhT Bwh UhT Buh y
      = gruRow (fun k => X (ix2 (y 0) k)) (fun k => H (ix2 (y 0) k))
          (fun q k => WzT (ix2 k q)) (fun q => Bwz (ix2 (0 : Fin 1) q)) (fun q k => UzT (ix2 k q)) (fun q => Buz (ix2 (0 : Fin 1) q))
          (fun q k => WrT (ix2 k q)) (fun q => Bwr (ix2 (0 : Fin 1) q)) (fun q k => UrT (ix2 k q)) (fun q => Bur (ix2 (0 : Fin 1) q))
          (fun q k => WhT (ix2 k q)) (fun q => Bwh (ix2 (0 : Fin 1) q)) (fun q k => UhT (ix2 k q)) (fun q => Buh (ix2 (0 : Fin 1) q)) (y 1) := by
  obtain ⟨p, q, rfl⟩ : ∃ (p : Fin 256) (q : Fin 1024), y = ix2 p q := ⟨y 0, y 1, eq_ix2 y⟩
  exact Cert.Gru.Body.pay_apply X H WzT WrT WhT UzT UrT UhT Bwz Bwr Bwh Buz Bur Buh p q

theorem hz : (![0, 0] : Fin 2 → Nat) = fun _ => 0 := funext fun a => by fin_cases a <;> rfl

/-- The new state of the launched arrays: the specification at the fourteen arguments. -/
abbrev newState (c : Dev nD) : S8192x1024.Idx → EReal :=
  G (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))
    (m ((c : Thread nD τ).loc main_arg12)) (m ((c : Thread nD τ).loc main_arg13))

/-- What point `t` writes back is block `t` (rows `256 t … 256 t + 255`) of the new state. -/
theorem flushed_eq (c : Dev nD) (t : Fin cfg0.N) :
    (dats m 0 c).flushed 14 t = ((cfg0.win 14).blk t).view.read (Elt Ideal) (newState m c) := by
  rw [Value.flushed14]
  unfold out0_14
  rw [View.canon_unit_zero hz]
  simp only [View.ld_unit_zero (S := S256x1024) hz, View.ld_unit_zero (S := S1024x1024) hz, View.ld_unit_zero (S := S1x1024) hz]
  obtain ⟨-, -, -, -, e0, e1⟩ := idx_rows t
  refine funext fun (j : S256x1024.Idx) => ?_
  show k0_pay1 (F := Ideal) (iblk m c 1 t) (k0_pay2 (iblk m c 0 t))
        (k0_pay4 (iblk m c 0 t) (iblk m c 1 t) (iblk m c 2 t) (iblk m c 8 t) (iblk m c 5 t) (iblk m c 11 t))
        (k0_pay5 (iblk m c 0 t) (iblk m c 1 t) (iblk m c 3 t) (iblk m c 9 t) (iblk m c 6 t) (iblk m c 12 t))
        (iblk m c 4 t) (iblk m c 10 t) (iblk m c 7 t) (iblk m c 13 t) j
      = newState m c (((cfg0.win 14).blk t).view.emb j)
  refine (stored_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) j).trans ?_
  have r0 : ((((cfg0.win 14).blk t).view.emb j : S8192x1024.Idx) 0).val = 256 * t.val + (j 0).val := by
    show win0_14.index t (0 : Fin 2) * 256 + 1 * (j 0).val = _
    omega
  have r1 : ((((cfg0.win 14).blk t).view.emb j : S8192x1024.Idx) 1) = j 1 := Fin.ext (by
    show win0_14.index t (1 : Fin 2) * 1024 + 1 * (j 1).val = _
    omega)
  exact gruRow_congr (fun k => xblk_apply m c t (j 0) k _ r0) (fun k => hblk_apply m c t (j 0) k _ r0)
    (fun q k => wzblk_apply m c t k q) (fun q => bwzblk_apply m c t q) (fun q k => uzblk_apply m c t k q) (fun q => buzblk_apply m c t q)
    (fun q k => wrblk_apply m c t k q) (fun q => bwrblk_apply m c t q) (fun q k => urblk_apply m c t k q) (fun q => burblk_apply m c t q)
    (fun q k => whblk_apply m c t k q) (fun q => bwhblk_apply m c t q) (fun q k => uhblk_apply m c t k q) (fun q => buhblk_apply m c t q)
    r1.symm

/-- Every entry of the result array lies in some point's block: row `r` in the block of point `r / 256`. -/
theorem covered (i : S8192x1024.Idx) :
    ∃ t : Fin cfg0.N, (cfg0.win 14).flush t = true ∧ i ∈ ((cfg0.win 14).blk t).view.set := by
  have hi0 : (i 0).val < 8192 := (i 0).isLt
  have hi1 : (i 1).val < 1024 := (i 1).isLt
  have hN : cfg0.N = 32 := N_0
  have hlt : (i 0).val / 256 < cfg0.N := by rw [hN]; omega
  obtain ⟨-, -, -, -, e0, e1⟩ := idx_rows ⟨(i 0).val / 256, hlt⟩
  refine ⟨⟨(i 0).val / 256, hlt⟩, flush0_14 _, ?_⟩
  show i ∈ ((View.whole main_v18).slice (win0_14.rect ⟨(i 0).val / 256, hlt⟩)).set
  rw [View.set_slice_whole, Rect.mem_set_unit]
  intro a
  match a with
  | ⟨0, _⟩ =>
    show win0_14.index ⟨(i 0).val / 256, hlt⟩ (0 : Fin 2) * 256 ≤ (i 0).val
      ∧ (i 0).val < win0_14.index ⟨(i 0).val / 256, hlt⟩ (0 : Fin 2) * 256 + 256
    have e0' : win0_14.index ⟨(i 0).val / 256, hlt⟩ (0 : Fin 2) = (i 0).val / 256 := e0
    omega
  | ⟨1, _⟩ =>
    show win0_14.index ⟨(i 0).val / 256, hlt⟩ (1 : Fin 2) * 1024 ≤ (i 1).val
      ∧ (i 1).val < win0_14.index ⟨(i 0).val / 256, hlt⟩ (1 : Fin 2) * 1024 + 1024
    omega

/-- After the run the result array is the new state. -/
theorem final (c : Dev nD) : (dats m 0 c).arrAt 14 cfg0.N = newState m c :=
  (dats m 0 c).arrAt_eq_of_cover 14 (newState m c) (fun t _ => flushed_eq m c t) covered

/-- The kernel's run, read: the result array at the new state of the arguments, the arguments unchanged. -/
theorem run : θ_run defs (onTc (τ := τ) (main (F := Ideal))) ⟨m, fun _ => 0, ρ⟩ fun r => ∀ c : Dev nD,
      r.2.mem ((c : Thread nD τ).loc main_v18) = newState m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.Gru.Arr

end
-- ==== Proof.RefIsSpec.lean ====
/-
  The reference program computes the gated recurrent cell of the specification.

  The reference stacks the three input-side weight matrices into one [3072, 1024] matrix and the two state-side
  gate matrices into one [2048, 1024] matrix, multiplies once on each side, adds the stacked biases, and slices the
  products back into their thirds and halves. Read one entry at a time, row 1024·p + q of a stack is row q of its
  p-th piece, so each slice is the affine map lin of the piece it came from. The reference's sigmoid is printed
  as 1 / (1 + exp (−t)), which is the logistic function by definition, and its candidate state adds the second
  bias last, ((x·w_hᵀ + b_wh) + (r∘h)·u_hᵀ) + b_uh, which is the specification's sum re-associated.
-/
import proofs.«161734_j27410481283547_1_alg».proof.Proof.Gen.ReferenceIdeal.Read
import proofs.«161734_j27410481283547_1_alg».proof.Proof.GruSpec
import Idealize.ShloMosaic.Lib.IdealHost
import Idealize.ShloMosaic.Lib.Pipeline.Value
import Idealize.ShloMosaic.Lib.ValueIdx
import Idealize.ShloMosaic.PureOps.Ideal

noncomputable section

namespace Cert.Gru.Ref

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

section Stages

variable (x0 x1 : (⟨S8192x1024, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))
  (x8 : (⟨S1024x1024, .f32⟩ : BufTy).Contents (Elt Ideal)) (x9 : (⟨S1024, .f32⟩ : BufTy).Contents (Elt Ideal))
  (x10 : (⟨S1024x1024, .f32⟩ : BufTy).Contents (Elt Ideal)) (x11 : (⟨S1024, .f32⟩ : BufTy).Contents (Elt Ideal))
  (x12 : (⟨S1024x1024, .f32⟩ : BufTy).Contents (Elt Ideal)) (x13 : (⟨S1024, .f32⟩ : BufTy).Contents (Elt Ideal))

/-! ## The stacked weights and biases, one entry at a time -/

/-- Rows 0 to 1023 of the stacked input-side weights are the update gate's. -/
theorem stackW_update (j : S3072x1024.Idx) (q k : Fin 1024) (h0 : (j 0).val = q.val) (h1 : (j 1).val = k.val) :
    val_main_v0 (F := Ideal) x2 x6 x10 j = x2 (ix2 q k) := by
  unfold val_main_v0
  exact concatenate_apply_piece 0 _ _ j 0 (by simp) S1024x1024 x2 rfl rfl 0 rfl (ix2 q k)
    (fun b hb => by
      match b with
      | ⟨0, _⟩ => exact absurd rfl hb
      | ⟨1, _⟩ => exact h1.symm)
    (by show 0 + q.val = (j 0).val; omega)

/-- Rows 1024 to 2047 of the stacked input-side weights are the reset gate's. -/
theorem stackW_reset (j : S3072x1024.Idx) (q k : Fin 1024) (h0 : (j 0).val = 1024 + q.val) (h1 : (j 1).val = k.val) :
    val_main_v0 (F := Ideal) x2 x6 x10 j = x6 (ix2 q k) := by
  unfold val_main_v0
  exact concatenate_apply_piece 0 _ _ j 1 (by simp) S1024x1024 x6 rfl rfl 1024 rfl (ix2 q k)
    (fun b hb => by
      match b with
      | ⟨0, _⟩ => exact absurd rfl hb
      | ⟨1, _⟩ => exact h1.symm)
    (by show 1024 + q.val = (j 0).val; omega)

/-- Rows 2048 to 3071 of the stacked input-side weights are the candidate's. -/
theorem stackW_cand (j : S3072x1024.Idx) (q k : Fin 1024) (h0 : (j 0).val = 2048 + q.val) (h1 : (j 1).val = k.val) :
    val_main_v0 (F := Ideal) x2 x6 x10 j = x10 (ix2 q k) := by
  unfold val_main_v0
  exact concatenate_apply_piece 0 _ _ j 2 (by simp) S1024x1024 x10 rfl rfl 2048 rfl (ix2 q k)
    (fun b hb => by
      match b with
      | ⟨0, _⟩ => exact absurd rfl hb
      | ⟨1, _⟩ => exact h1.symm)
    (by show 2048 + q.val = (j 0).val; omega)

/-- Entries 0 to 1023 of the stacked input-side biases are the update gate's. -/
theorem stackB_update (j : S3072.Idx) (q : Fin 1024) (h0 : (j 0).val = q.val) :
    val_main_v1 (F := Ideal) x3 x7 x11 j = x3 (ix1 q) := by
  unfold val_main_v1
  exact concatenate_apply_piece 0 _ _ j 0 (by simp) S1024 x3 rfl rfl 0 rfl (ix1 q)
    (fun b hb => by
      match b with
      | ⟨0, _⟩ => exact absurd rfl hb)
    (by show 0 + q.val = (j 0).val; omega)

/-- Entries 1024 to 2047 of the stacked input-side biases are the reset gate's. -/
theorem stackB_reset (j : S3072.Idx) (q : Fin 1024) (h0 : (j 0).val = 1024 + q.val) :
    val_main_v1 (F := Ideal) x3 x7 x11 j = x7 (ix1 q) := by
  unfold val_main_v1
  exact concatenate_apply_piece 0 _ _ j 1 (by simp) S1024 x7 rfl rfl 1024 rfl (ix1 q)
    (fun b hb => by
      match b with
      | ⟨0, _⟩ => exact absurd rfl hb)
    (by show 1024 + q.val = (j 0).val; omega)

/-- Entries 2048 to 3071 of the stacked input-side biases are the candidate's. -/
theorem stackB_cand (j : S3072.Idx) (q : Fin 1024) (h0 : (j 0).val = 2048 + q.val) :
    val_main_v1 (F := Ideal) x3 x7 x11 j = x11 (ix1 q) := by
  unfold val_main_v1
  exact concatenate_apply_piece 0 _ _ j 2 (by simp) S1024 x11 rfl rfl 2048 rfl (ix1 q)
    (fun b hb => by
      match b with
      | ⟨0, _⟩ => exact absurd rfl hb)
    (by show 2048 + q.val = (j 0).val; omega)

/-- Rows 0 to 1023 of the stacked state-side weights are the update gate's. -/
theorem stackU_update (j : S2048x1024.Idx) (q k : Fin 1024) (h0 : (j 0).val = q.val) (h1 : (j 1).val = k.val) :
    val_main_v10 (F := Ideal) x4 x8 j = x4 (ix2 q k) := by
  unfold val_main_v10
  exact concatenate_pair_apply_left 0 x4 x8 _ j rfl (ix2 q k) (fun b => by
    match b with
    | ⟨0, _⟩ => exact h0.symm
    | ⟨1, _⟩ => exact h1.symm)

/-- Rows 1024 to 2047 of the stacked state-side weights are the reset gate's. -/
theorem stackU_reset (j : S2048x1024.Idx) (q k : Fin 1024) (h0 : (j 0).val = 1024 + q.val) (h1 : (j 1).val = k.val) :
    val_main_v10 (F := Ideal) x4 x8 j = x8 (ix2 q k) := by
  unfold val_main_v10
  exact concatenate_pair_apply_right 0 x4 x8 _ j rfl rfl (ix2 q k)
    (fun b hb => by
      match b with
      | ⟨0, _⟩ => exact absurd rfl hb
      | ⟨1, _⟩ => exact h1.symm)
    (by show q.val + 1024 = (j 0).val; omega)

/-- Entries 0 to 1023 of the stacked state-side biases are the update gate's. -/
theorem stackC_update (j : S2048.Idx) (q : Fin 1024) (h0 : (j 0).val = q.val) :
    val_main_v11 (F := Ideal) x5 x9 j = x5 (ix1 q) := by
  unfold val_main_v11
  exact concatenate_pair_apply_left 0 x5 x9 _ j rfl (ix1 q) (fun b => by
    match b with
    | ⟨0, _⟩ => exact h0.symm)

/-- Entries 1024 to 2047 of the stacked state-side biases are the reset gate's. -/
theorem stackC_reset (j : S2048.Idx) (q : Fin 1024) (h0 : (j 0).val = 1024 + q.val) :
    val_main_v11 (F := Ideal) x5 x9 j = x9 (ix1 q) := by
  unfold val_main_v11
  exact concatenate_pair_apply_right 0 x5 x9 _ j rfl rfl (ix1 q)
    (fun b hb => by
      match b with
      | ⟨0, _⟩ => exact absurd rfl hb)
    (by show q.val + 1024 = (j 0).val; omega)

/-! ## The five affine maps the two stacked products hold

Each slice of a stacked product, at row r and output q, is the sum over k of the row's entry k against the piece's
weight (q, k), plus the piece's bias q. -/

/-- The first third of the input-side product is the update gate's affine map of the input row. -/
theorem inputMap_update (r : Fin 8192) (q : Fin 1024) :
    val_main_v7 (F := Ideal) x0 x2 x3 x6 x7 x10 x11 (ix2 r q)
      = lin (fun k => x0 (ix2 r k)) (fun q k => x2 (ix2 q k)) (fun q => x3 (ix1 q)) q := by
  rw [val_main_v7_apply, val_main_v6_apply, val_main_v3_apply, val_main_v5_apply, val_main_v4_apply, Ideal.addf_def]
  unfold lin
  congr 1
  · refine Finset.sum_congr rfl fun k _ => ?_
    rw [val_main_v2_apply]
    congr 1
    · exact congrArg x0 (funext fun a => Fin.ext (by match a with | ⟨0, _⟩ => rfl | ⟨1, _⟩ => rfl))
    · exact stackW_update x2 x6 x10 _ q k rfl rfl
  · exact stackB_update x3 x7 x11 _ q rfl

/-- The second third of the input-side product is the reset gate's affine map of the input row. -/
theorem inputMap_reset (r : Fin 8192) (q : Fin 1024) :
    val_main_v8 (F := Ideal) x0 x2 x3 x6 x7 x10 x11 (ix2 r q)
      = lin (fun k => x0 (ix2 r k)) (fun q k => x6 (ix2 q k)) (fun q => x7 (ix1 q)) q := by
  rw [val_main_v8_apply, val_main_v6_apply, val_main_v3_apply, val_main_v5_apply, val_main_v4_apply, Ideal.addf_def]
  unfold lin
  congr 1
  · refine Finset.sum_congr rfl fun k _ => ?_
    rw [val_main_v2_apply]
    congr 1
    · exact congrArg x0 (funext fun a => Fin.ext (by match a with | ⟨0, _⟩ => rfl | ⟨1, _⟩ => rfl))
    · exact stackW_reset x2 x6 x10 _ q k rfl rfl
  · exact stackB_reset x3 x7 x11 _ q rfl

/-- The last third of the input-side product is the candidate's affine map of the input row. -/
theorem inputMap_cand (r : Fin 8192) (q : Fin 1024) :
    val_main_v9 (F := Ideal) x0 x2 x3 x6 x7 x10 x11 (ix2 r q)
      = lin (fun k => x0 (ix2 r k)) (fun q k => x10 (ix2 q k)) (fun q => x11 (ix1 q)) q := by
  rw [val_main_v9_apply, val_main_v6_apply, val_main_v3_apply, val_main_v5_apply, val_main_v4_apply, Ideal.addf_def]
  unfold lin
  congr 1
  · refine Finset.sum_congr rfl fun k _ => ?_
    rw [val_main_v2_apply]
    congr 1
    · exact congrArg x0 (funext fun a => Fin.ext (by match a with | ⟨0, _⟩ => rfl | ⟨1, _⟩ => rfl))
    · exact stackW_cand x2 x6 x10 _ q k rfl rfl
  · exact stackB_cand x3 x7 x11 _ q rfl

/-- The first half of the state-side product is the update gate's affine map of the state row. -/
theorem stateMap_update (r : Fin 8192) (q : Fin 1024) :
    val_main_v17 (F := Ideal) x1 x4 x5 x8 x9 (ix2 r q)
      = lin (fun k => x1 (ix2 r k)) (fun q k => x4 (ix2 q k)) (fun q => x5 (ix1 q)) q := by
  rw [val_main_v17_apply, val_main_v16_apply, val_main_v13_apply, val_main_v15_apply, val_main_v14_apply, Ideal.addf_def]
  unfold lin
  congr 1
  · refine Finset.sum_congr rfl fun k _ => ?_
    rw [val_main_v12_apply]
    congr 1
    · exact congrArg x1 (funext fun a => Fin.ext (by match a with | ⟨0, _⟩ => rfl | ⟨1, _⟩ => rfl))
    · exact stackU_update x4 x8 _ q k rfl rfl
  · exact stackC_update x5 x9 _ q rfl

/-- The second half of the state-side product is the reset gate's affine map of the state row. -/
theorem stateMap_reset (r : Fin 8192) (q : Fin 1024) :
    val_main_v18 (F := Ideal) x1 x4 x5 x8 x9 (ix2 r q)
      = lin (fun k => x1 (ix2 r k)) (fun q k => x8 (ix2 q k)) (fun q => x9 (ix1 q)) q := by
  rw [val_main_v18_apply, val_main_v16_apply, val_main_v13_apply, val_main_v15_apply, val_main_v14_apply, Ideal.addf_def]
  unfold lin
  congr 1
  · refine Finset.sum_congr rfl fun k _ => ?_
    rw [val_main_v12_apply]
    congr 1
    · exact congrArg x1 (funext fun a => Fin.ext (by match a with | ⟨0, _⟩ => rfl | ⟨1, _⟩ => rfl))
    · exact stackU_reset x4 x8 _ q k rfl rfl
  · exact stackC_reset x5 x9 _ q rfl

/-! ## The gates

The reference prints its sigmoid as 1 / (1 + exp (−t)) with the constant one; that is the logistic function as
defined. -/

/-- The reference's update gate is the specification's: the logistic function of the two update-gate affine maps. -/
theorem updateGate (r : Fin 8192) (q : Fin 1024) :
    val_main_v25 (F := Ideal) x0 x1 x2 x3 x4 x5 x6 x7 x8 x9 x10 x11 (ix2 r q)
      = gate (fun k => x0 (ix2 r k)) (fun k => x1 (ix2 r k))
          (fun q k => x2 (ix2 q k)) (fun q => x3 (ix1 q)) (fun q k => x4 (ix2 q k)) (fun q => x5 (ix1 q)) q := by
  rw [val_main_v25_apply, val_main_v24_apply, val_main_cst_0_apply, val_main_v23_apply, val_main_v22_apply,
    val_main_cst_apply, val_main_v21_apply, val_main_v20_apply, val_main_v19_apply, inputMap_update, stateMap_update]
  simp only [Ideal.hostDivf_def, Ideal.ofBits_def, Ideal.ofBits_one_f32, Ideal.addf_def, Ideal.hostUnary_exp_def,
    Ideal.hostNegf_def, Ideal.negf_def]
  rfl

/-- The reference's reset gate is the specification's: the logistic function of the two reset-gate affine maps. -/
theorem resetGate (r : Fin 8192) (q : Fin 1024) :
    val_main_v32 (F := Ideal) x0 x1 x2 x3 x4 x5 x6 x7 x8 x9 x10 x11 (ix2 r q)
      = gate (fun k => x0 (ix2 r k)) (fun k => x1 (ix2 r k))
          (fun q k => x6 (ix2 q k)) (fun q => x7 (ix1 q)) (fun q k => x8 (ix2 q k)) (fun q => x9 (ix1 q)) q := by
  rw [val_main_v32_apply, val_main_v31_apply, val_main_cst_2_apply, val_main_v30_apply, val_main_v29_apply,
    val_main_cst_1_apply, val_main_v28_apply, val_main_v27_apply, val_main_v26_apply, inputMap_reset, stateMap_reset]
  simp only [Ideal.hostDivf_def, Ideal.ofBits_def, Ideal.ofBits_one_f32, Ideal.addf_def, Ideal.hostUnary_exp_def,
    Ideal.hostNegf_def, Ideal.negf_def]
  rfl

/-! ## The candidate state

The reset gate scales the state row entry by entry; the scaled row goes through the candidate's state-side weights.
The reference adds that product to the input-side affine map first and the state-side bias last; the specification
adds the bias to the product first. The two sums differ by one re-association. -/

/-- Entry k of the reset-gated state row: the reset gate at k times the state's entry k. -/
theorem gatedState (r : Fin 8192) (k : Fin 1024) :
    val_main_v33 (F := Ideal) x0 x1 x2 x3 x4 x5 x6 x7 x8 x9 x10 x11 (ix2 r k)
      = gate (fun k => x0 (ix2 r k)) (fun k => x1 (ix2 r k))
            (fun q k => x6 (ix2 q k)) (fun q => x7 (ix1 q)) (fun q k => x8 (ix2 q k)) (fun q => x9 (ix1 q)) k
        * x1 (ix2 r k) := by
  rw [val_main_v33_apply, resetGate, Ideal.mulf_def]

/-- The candidate's state-side product at row r, output q: the reset-gated state row against row q of the
    candidate's state-side weights. -/
theorem candStateProduct (r : Fin 8192) (q : Fin 1024) :
    val_main_v35 (F := Ideal) x0 x1 x2 x3 x4 x5 x6 x7 x8 x9 x10 x11 x12 (ix2 r q)
      = ∑ k : Fin 1024,
          (gate (fun k => x0 (ix2 r k)) (fun k => x1 (ix2 r k))
            (fun q k => x6 (ix2 q k)) (fun q => x7 (ix1 q)) (fun q k => x8 (ix2 q k)) (fun q => x9 (ix1 q)) k
            * x1 (ix2 r k)) * x12 (ix2 q k) := by
  rw [val_main_v35_apply]
  refine Finset.sum_congr rfl fun k _ => ?_
  have e1 : lidx_main_v35 (ix2 r q) k = ix2 r k :=
    funext fun a => Fin.ext (by match a with | ⟨0, _⟩ => rfl | ⟨1, _⟩ => rfl)
  have e2 : idx_main_v34 (ridx_main_v35 (ix2 r q) k) = ix2 q k :=
    funext fun a => Fin.ext (by match a with | ⟨0, _⟩ => rfl | ⟨1, _⟩ => rfl)
  rw [val_main_v34_apply, e1, e2, gatedState]

/-- The candidate's pre-activation is the specification's: the input row's affine map plus the reset-gated state
    row's affine map. -/
theorem candPreactivation (r : Fin 8192) (q : Fin 1024) :
    val_main_v39 (F := Ideal) x0 x1 x2 x3 x4 x5 x6 x7 x8 x9 x10 x11 x12 x13 (ix2 r q)
      = lin (fun k => x0 (ix2 r k)) (fun q k => x10 (ix2 q k)) (fun q => x11 (ix1 q)) q
        + lin (fun k => gate (fun k => x0 (ix2 r k)) (fun k => x1 (ix2 r k))
            (fun q k => x6 (ix2 q k)) (fun q => x7 (ix1 q)) (fun q k => x8 (ix2 q k)) (fun q => x9 (ix1 q)) k
                * x1 (ix2 r k))
            (fun q k => x12 (ix2 q k)) (fun q => x13 (ix1 q)) q := by
  have e : idx_main_v37 (idx_main_v38 (ix2 r q)) = ix1 q :=
    funext fun a => Fin.ext (by match a with | ⟨0, _⟩ => rfl)
  rw [val_main_v39_apply, val_main_v36_apply, val_main_v38_apply, val_main_v37_apply, inputMap_cand, candStateProduct, e]
  simp only [Ideal.addf_def]
  rw [add_assoc]
  rfl

end Stages

/-! ## The reference is the specification -/

/-- The reference program's result is the gated recurrent cell G of its fourteen arguments. -/
theorem ref_eq_G (x0 x1 : (⟨Cert.ReferenceIdeal.S8192x1024, .f32⟩ : BufTy).Contents (Elt Ideal))
    (x2 : (⟨Cert.ReferenceIdeal.S1024x1024, .f32⟩ : BufTy).Contents (Elt Ideal))
    (x3 : (⟨Cert.ReferenceIdeal.S1024, .f32⟩ : BufTy).Contents (Elt Ideal))
    (x4 : (⟨Cert.ReferenceIdeal.S1024x1024, .f32⟩ : BufTy).Contents (Elt Ideal))
    (x5 : (⟨Cert.ReferenceIdeal.S1024, .f32⟩ : BufTy).Contents (Elt Ideal))
    (x6 : (⟨Cert.ReferenceIdeal.S1024x1024, .f32⟩ : BufTy).Contents (Elt Ideal))
    (x7 : (⟨Cert.ReferenceIdeal.S1024, .f32⟩ : BufTy).Contents (Elt Ideal))
    (x8 : (⟨Cert.ReferenceIdeal.S1024x1024, .f32⟩ : BufTy).Contents (Elt Ideal))
    (x9 : (⟨Cert.ReferenceIdeal.S1024, .f32⟩ : BufTy).Contents (Elt Ideal))
    (x10 : (⟨Cert.ReferenceIdeal.S1024x1024, .f32⟩ : BufTy).Contents (Elt Ideal))
    (x11 : (⟨Cert.ReferenceIdeal.S1024, .f32⟩ : BufTy).Contents (Elt Ideal))
    (x12 : (⟨Cert.ReferenceIdeal.S1024x1024, .f32⟩ : BufTy).Contents (Elt Ideal))
    (x13 : (⟨Cert.ReferenceIdeal.S1024, .f32⟩ : BufTy).Contents (Elt Ideal)) :
    Cert.ReferenceIdeal.Read.val_main_v45 (F := Ideal) x0 x1 x2 x3 x4 x5 x6 x7 x8 x9 x10 x11 x12 x13
      = Cert.Gru.G x0 x1 x2 x3 x4 x5 x6 x7 x8 x9 x10 x11 x12 x13 := by
  funext i
  obtain ⟨r, q, rfl⟩ : ∃ (r : Fin 8192) (q : Fin 1024), i = ix2 r q := ⟨i 0, i 1, eq_ix2 i⟩
  rw [val_main_v45_apply, val_main_v43_apply, val_main_v42_apply, val_main_v41_apply, val_main_cst_3_apply,
    val_main_v44_apply, val_main_v40_apply, updateGate, candPreactivation]
  simp only [Ideal.addf_def, Ideal.mulf_def, Ideal.subf_def, Ideal.ofBits_def, Ideal.ofBits_one_f32,
    Ideal.hostUnary_tanh_def]
  rfl

end Cert.Gru.Ref

end
-- ==== Proof.lean ====
/-
  The gated recurrent cell kernel against its reference, over the extended reals.

  Both programs compute, for every batch row `i` and output column `q`,

    z = logistic ((x_i · w_z[q] + b_wz[q]) + (h_i · u_z[q] + b_uz[q]))
    r = logistic ((x_i · w_r[q] + b_wr[q]) + (h_i · u_r[q] + b_ur[q]))
    c = tanh ((x_i · w_h[q] + b_wh[q]) + ((r_i ∘ h_i) · u_h[q] + b_uh[q]))
    new state = (1 − z) · h_i[q] + z · c

  (`Cert.Gru.G`). The kernel tiles the batch in 32 blocks of 256 rows and multiplies by weights transposed on the
  host beforehand; its change of float format before each product is the identity on the extended reals. The
  reference stacks the weight matrices, multiplies once per side and slices; it spells the logistic function as
  `1 / (1 + exp (−t))`, which is that function by definition, and adds the candidate's second bias last, which is the
  same sum re-associated (addition of extended reals is associative; no finiteness of the inputs is used).
  The kernel's result array is `G` of the arguments (the kernel modules), the reference's result is `G` of the
  arguments (the reference module), and the arguments agree.
-/
import proofs.«161734_j27410481283547_1_alg».proof.Defs
import proofs.«161734_j27410481283547_1_alg».proof.Proof.Gen.Kernel
import proofs.«161734_j27410481283547_1_alg».proof.Proof.Gen.Kernel.Skeleton
import proofs.«161734_j27410481283547_1_alg».proof.Proof.Gen.Kernel.Launch
import proofs.«161734_j27410481283547_1_alg».proof.Proof.Gen.Kernel.Points
import proofs.«161734_j27410481283547_1_alg».proof.Proof.Gen.Kernel.Frame
import proofs.«161734_j27410481283547_1_alg».proof.Proof.Gen.KernelIdeal
import proofs.«161734_j27410481283547_1_alg».proof.Proof.Gen.KernelIdeal.Skeleton
import proofs.«161734_j27410481283547_1_alg».proof.Proof.Gen.KernelIdeal.Launch
import proofs.«161734_j27410481283547_1_alg».proof.Proof.Gen.KernelIdeal.Points
import proofs.«161734_j27410481283547_1_alg».proof.Proof.Gen.KernelIdeal.Frame
import proofs.«161734_j27410481283547_1_alg».proof.Proof.Gen.ReferenceIdeal
import proofs.«161734_j27410481283547_1_alg».proof.Proof.Gen.Pre_finite_inputs
import proofs.«161734_j27410481283547_1_alg».proof.Proof.Gen.KernelIdeal.Value
import proofs.«161734_j27410481283547_1_alg».proof.Proof.Gen.ReferenceIdeal.Run
import proofs.«161734_j27410481283547_1_alg».proof.Proof.Gen.ReferenceIdeal.Read
import proofs.«161734_j27410481283547_1_alg».proof.Proof.KernelArray
import proofs.«161734_j27410481283547_1_alg».proof.Proof.RefIsSpec
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the fourteen arguments both programs end with the new state `G` of those arguments
    in their result arrays. -/
theorem algebraic : Cert.algebraic_KernelIdeal_ReferenceIdeal := by
  intro m ρ m' ρ' _ hagree
  refine ⟨fun c => Cert.Gru.Arr.newState m c, Cert.Gru.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v45_eq, Cert.Gru.Ref.ref_eq_G, a0, a1, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
